-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S512x768 : Shape := ⟨2, ![512, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S512x768 : S_.BroadcastsInDim S512x768 (![] : Fin 0 → Fin S512x768.rank)
  reducesTo_S512x768_S_d0_1 : S512x768.ReducesTo [0, 1] S_

variable [Facts]

def fn {F : FTy → Type} [FloatOps F] (main_arg0 : FVec F S32x512x768 .f32) (main_arg1 : FVec F S512x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  main_v8
-- ==== Kernel.lean ====
abbrev S32x512x768 : Shape := ⟨3, ![32, 512, 768]⟩
abbrev S512x768 : Shape := ⟨2, ![512, 768]⟩
abbrev S16384x768 : Shape := ⟨2, ![16384, 768]⟩
abbrev S_ : Shape := ⟨0, ![]⟩
abbrev S512 : Shape := ⟨1, ![512]⟩
abbrev S512x1 : Shape := ⟨2, ![512, 1]⟩
abbrev S1x512 : Shape := ⟨2, ![1, 512]⟩
abbrev S16384x512 : Shape := ⟨2, ![16384, 512]⟩
abbrev S1024x768 : Shape := ⟨2, ![1024, 768]⟩
abbrev S1024x512 : Shape := ⟨2, ![1024, 512]⟩
abbrev S1024 : Shape := ⟨1, ![1024]⟩
abbrev S1024x1 : Shape := ⟨2, ![1024, 1]⟩
abbrev S32x512x512 : Shape := ⟨3, ![32, 512, 512]⟩

abbrev nBuf : Space → Nat
  | .hbm => 10
  | .vmem => 6
  | .smem => 0
  | _ => 0

abbrev bufTy : (tb : Table) → Fin (tcTables nBuf tb) → BufTy
  | .hbm, ⟨0, _⟩ => ⟨S32x512x768, .f32⟩
  | .hbm, ⟨1, _⟩ => ⟨S512x768, .f32⟩
  | .hbm, ⟨2, _⟩ => ⟨S16384x768, .f32⟩
  | .hbm, ⟨3, _⟩ => ⟨S512x768, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S16384x512, .f32⟩
  | .hbm, ⟨9, _⟩ => ⟨S32x512x512, .f32⟩
  | .local _ .vmem, ⟨0, _⟩ => ⟨S1024x768, .f32⟩
  | .local _ .vmem, ⟨1, _⟩ => ⟨S1024x768, .f32⟩
  | .local _ .vmem, ⟨2, _⟩ => ⟨S512x768, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x768_S16384x768 : S32x512x768.ShapeCasts S16384x768
  reducesTo_S512x768_S512_d1 : S512x768.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x768_S1024 : S1024x768.Reduces [1] S1024
  shapeCasts_S1024_S1024x1 : S1024.ShapeCasts S1024x1
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x512_S32x512x512 : S16384x512.ShapeCasts S32x512x512
  dot_S1024x768_S512x768_S1024x512_1_1_0_0_n_n_wf : DotDims.WF S1024x768 S512x768 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S512x768 : Shape := ⟨2, ![512, 768]⟩
abbrev S_ : Shape := ⟨0, ![]⟩
abbrev S32x512 : Shape := ⟨2, ![32, 512]⟩
abbrev S32x512x1 : Shape := ⟨3, ![32, 512, 1]⟩
abbrev S512 : Shape := ⟨1, ![512]⟩
abbrev S32x512x512 : Shape := ⟨3, ![32, 512, 512]⟩
abbrev S1x1x512 : Shape := ⟨3, ![1, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S512x768, .f32⟩
  | .hbm, ⟨2, _⟩ => ⟨S32x512x768, .f32⟩
  | .hbm, ⟨3, _⟩ => ⟨S_, .f32⟩
  | .hbm, ⟨4, _⟩ => ⟨S32x512, .f32⟩
  | .hbm, ⟨5, _⟩ => ⟨S32x512x1, .f32⟩
  | .hbm, ⟨6, _⟩ => ⟨S512x768, .f32⟩
  | .hbm, ⟨7, _⟩ => ⟨S_, .f32⟩
  | .hbm, ⟨8, _⟩ => ⟨S512, .f32⟩
  | .hbm, ⟨9, _⟩ => ⟨S32x512x512, .f32⟩
  | .hbm, ⟨10, _⟩ => ⟨S1x1x512, .f32⟩
  | .hbm, ⟨11, _⟩ => ⟨S32x512x512, .f32⟩
  | .hbm, ⟨12, _⟩ => ⟨S32x512x512, .f32⟩
  | .hbm, ⟨13, _⟩ => ⟨S32x512x512, .f32⟩
  | .hbm, ⟨14, _⟩ => ⟨S_, .f32⟩
  | .hbm, ⟨15, _⟩ => ⟨S32x512x512, .f32⟩
  | .hbm, ⟨16, _⟩ => ⟨S32x512x512, .f32⟩
  | .hbm, ⟨17, _⟩ => ⟨S32x512x512, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S32x512x768_S32x512_d2 : S32x512x768.ReducesTo [2] S32x512
  h_S_ : 0 < S_.numel
  bcast_S32x512_S32x512x1_0_1 : S32x512.BroadcastsInDim S32x512x1 (![0, 1] : Fin 2 → Fin S32x512x1.rank)
  reducesTo_S512x768_S512_d1 : S512x768.ReducesTo [1] S512
  bcast_S512_S1x1x512_2 : S512.BroadcastsInDim S1x1x512 (![2] : Fin 1 → Fin S1x1x512.rank)
  bcast_S32x512x1_S32x512x512_0_1_2 : S32x512x1.BroadcastsInDim S32x512x512 (![0, 1, 2] : Fin 3 → Fin S32x512x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  dot_S32x512x768_S512x768_S32x512x512_2_1_01_0_n_n_wf : DotDims.WF S32x512x768 S512x768 S32x512x512 [2] [1] [0, 1] [0] [] []

variable [Facts₀]

def dot_S32x512x768_S512x768_S32x512x512_2_1_01_0_n_n : DotDims S32x512x768 S512x768 S32x512x512 where
  lhsContracting := [2]
  rhsContracting := [1]
  lhsNonContracting := [0, 1]
  rhsNonContracting := [0]
  lhsBatch := []
  rhsBatch := []
  wf := dot_S32x512x768_S512x768_S32x512x512_2_1_01_0_n_n_wf

class Facts : Prop extends Facts₀ where

variable [Facts]
-- ==== Proof.SqDist.lean ====
/-
  The quantity both programs compute: the squared Euclidean distance from a token row `x` to a prototype row `p`,
  expanded as ‖x‖² + ‖p‖² − 2·⟨x, p⟩, every sum over the 768 feature coordinates, on the extended reals.
  No law of arithmetic is used anywhere in this certificate beyond `0 + a = a`: the two programs apply the same
  operations in the same grouping, and differ only in how they lay the token rows out (a [32, 512] table of rows
  against one flat list of 16384 rows cut into 16 blocks of 1024).
-/
import Idealize.ShloMosaic.PureOps.Ideal
import Idealize.ShloMosaic.Lib.ValueIdx

noncomputable section

namespace Cert.SqDist

open Idealize.ShloMosaic Idealize.ShloMosaic.ValueIdx

/-- The literal `2.0` both programs scale the cross term by (the same f32 word on both sides; never evaluated). -/
abbrev two : EReal := Ideal.ofBits .f32 0x40000000#32

/-- ‖x‖² + ‖p‖² − 2·⟨x, p⟩ for one token row and one prototype row, each a function of the feature coordinate. -/
def rowDist (x p : Fin 768 → EReal) : EReal :=
  ((∑ k : Fin 768, x k * x k) + (∑ k : Fin 768, p k * p k)) - two * ∑ k : Fin 768, x k * p k

/-- The result array over the [32, 512] table of token rows: entry (b, s, q) is the distance from row (b, s) of
    the tokens to row q of the prototypes. -/
def dist3 (x : (⟨3, ![32, 512, 768]⟩ : Shape).Idx → EReal) (p : (⟨2, ![512, 768]⟩ : Shape).Idx → EReal) :
    (⟨3, ![32, 512, 512]⟩ : Shape).Idx → EReal :=
  fun i => rowDist (fun k => x (ix3 (i 0) (i 1) k)) (fun k => p (ix2 (i 2) k))

/-- The same over the flat list of 16384 token rows, with the prototypes' squared norms given as a [1, 512] row
    `s` (the kernel receives them precomputed): entry (r, q) is ‖x_r‖² + s_q − 2·⟨x_r, p_q⟩. -/
def dist2 (a : (⟨2, ![16384, 768]⟩ : Shape).Idx → EReal) (p : (⟨2, ![512, 768]⟩ : Shape).Idx → EReal)
    (s : (⟨2, ![1, 512]⟩ : Shape).Idx → EReal) : (⟨2, ![16384, 512]⟩ : Shape).Idx → EReal :=
  fun j => ((∑ k : Fin 768, a (ix2 (j 0) k) * a (ix2 (j 0) k)) + s (ix2 0 (j 1)))
    - two * ∑ k : Fin 768, a (ix2 (j 0) k) * p (ix2 (j 1) k)

end Cert.SqDist

end
-- ==== Proof.KernelBlock.lean ====
/-
  What one grid step of the kernel stores, read at an index. The body takes a block of 1024 token rows `x0`, the
  whole prototype table `x1` and the row `x2` of the prototypes' squared norms, and stores
  (rowsum(x0·x0) broadcast along the row + x2 broadcast down the column) − 2 · (x0 · x1ᵀ).
  At the extended reals the narrowing of both matmul operands to bf16 is the identity, the matrix product into a
  zero accumulator is the plain sum over the contracted coordinate, and the lane reduction is the plain sum over the
  row; so entry (r, q) of the stored block is ‖x0_r‖² + x2_q − 2·⟨x0_r, x1_q⟩.
-/
import proofs.«162291_j50818053047015_1_alg».proof.Proof.Gen.KernelIdeal.Skeleton
import proofs.«162291_j50818053047015_1_alg».proof.Proof.SqDist
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! The body's matrix product pairs rows of the token block with rows of the prototype table, the feature axis
    (axis 1 of both) contracted. Its operand indices, axis by axis: -/

/-- On the left operand's row axis the product reads the output's row. -/
theorem lhs_0 (i : S1024x512.Idx) (q : dot_S1024x768_S512x768_S1024x512_1_1_0_0_n_n.contr.Idx) :
    (dot_S1024x768_S512x768_S1024x512_1_1_0_0_n_n.lhsIdx i q 0).val = (i 0).val := by
  unfold DotDims.lhsIdx
  rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
  rfl
/-- On the left operand's feature axis it reads the contraction coordinate. -/
theorem lhs_1 (i : S1024x512.Idx) (q : dot_S1024x768_S512x768_S1024x512_1_1_0_0_n_n.contr.Idx) :
    (dot_S1024x768_S512x768_S1024x512_1_1_0_0_n_n.lhsIdx i q 1).val = (q ⟨0, by decide⟩).val :=
  dot_S1024x768_S512x768_S1024x512_1_1_0_0_n_n.lhsIdx_val_of_single rfl i q
/-- On the right operand's row axis (the prototype) it reads the output's column. -/
theorem rhs_0 (i : S1024x512.Idx) (q : dot_S1024x768_S512x768_S1024x512_1_1_0_0_n_n.contr.Idx) :
    (dot_S1024x768_S512x768_S1024x512_1_1_0_0_n_n.rhsIdx i q 0).val = (i 1).val := by
  unfold DotDims.rhsIdx
  rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
  rfl
/-- On the right operand's feature axis it reads the contraction coordinate. -/
theorem rhs_1 (i : S1024x512.Idx) (q : dot_S1024x768_S512x768_S1024x512_1_1_0_0_n_n.contr.Idx) :
    (dot_S1024x768_S512x768_S1024x512_1_1_0_0_n_n.rhsIdx i q 1).val = (q ⟨0, by decide⟩).val :=
  dot_S1024x768_S512x768_S1024x512_1_1_0_0_n_n.rhsIdx_val_of_single rfl i q

/-- The matrix product into a zero accumulator, at entry (r, q): the inner product of row r of the left operand with
    row q of the right one. -/
theorem cross_apply (l : FVec Ideal S1024x768 .bf16) (w : FVec Ideal S512x768 .bf16) (r : Fin 1024) (q : Fin 512) :
    matmul dot_S1024x768_S512x768_S1024x512_1_1_0_0_n_n none l w (constant S1024x512 .f32 0x00000000#32) (ix2 r q)
      = ∑ k : Fin 768, l (ix2 r k) * w (ix2 q k) := by
  show FloatOps.matmul dot_S1024x768_S512x768_S1024x512_1_1_0_0_n_n none l w (constant S1024x512 .f32 0x00000000#32) (ix2 r q) = _
  rw [Ideal.matmul_constant_zero_apply, ← Equiv.sum_comp (ValueIdx.contrEquiv1 dot_S1024x768_S512x768_S1024x512_1_1_0_0_n_n 768 rfl rfl).symm]
  refine Finset.sum_congr rfl fun k _ => ?_
  have hk := ValueIdx.contrEquiv1_symm_val dot_S1024x768_S512x768_S1024x512_1_1_0_0_n_n 768 rfl rfl k
  have el : dot_S1024x768_S512x768_S1024x512_1_1_0_0_n_n.lhsIdx (ix2 r q) ((ValueIdx.contrEquiv1 dot_S1024x768_S512x768_S1024x512_1_1_0_0_n_n 768 rfl rfl).symm k) = ix2 r k := funext fun a => Fin.ext (by
    match a with
    | ⟨0, _⟩ => exact lhs_0 _ _
    | ⟨1, _⟩ => exact (lhs_1 _ _).trans hk)
  have er : dot_S1024x768_S512x768_S1024x512_1_1_0_0_n_n.rhsIdx (ix2 r q) ((ValueIdx.contrEquiv1 dot_S1024x768_S512x768_S1024x512_1_1_0_0_n_n 768 rfl rfl).symm k) = ix2 q k := funext fun a => Fin.ext (by
    match a with
    | ⟨0, _⟩ => exact rhs_0 _ _
    | ⟨1, _⟩ => exact (rhs_1 _ _).trans hk)
  rw [el, er]

/-- The row sums of a [1024, 768] block, kept as a [1024, 1] column and broadcast along the 512 columns: entry (r, q) is
    the sum of row r. -/
theorem rowsum_apply (y : FVec Ideal S1024x768 .f32) (r : Fin 1024) (q : Fin 512) :
    broadcastTo S1024x512 (shapeCast S1024x1 (multiReduction .add [1] S1024 y 0x00000000#32 reduces_S1024x768_S1024 (.inl rfl) rfl) shapeCasts_S1024_S1024x1) broadcasts_S1024x1_S1024x512 (ix2 r q)
      = ∑ k : Fin 768, y (ix2 r k) := by
  rw [broadcastTo_apply _ broadcasts_S1024x1_S1024x512 (ix2 r q) (ix2 r (0 : Fin 1)) (fun a => by
    match a with
    | ⟨0, _⟩ => show r.val = if (1024 : Nat) = 1 then 0 else r.val; rw [if_neg (by decide)]
    | ⟨1, _⟩ => show 0 = if (1 : Nat) = 1 then 0 else q.val; rw [if_pos rfl])]
  rw [shapeCast_apply _ shapeCasts_S1024_S1024x1 (ix2 r (0 : Fin 1)) (ix1 r) (by
    rw [Shape.rowMajor_val_one, Shape.rowMajor_val_two]; show r.val = r.val * 1 + 0; omega)]
  refine (Ideal.multiReduction_add_single y 0x00000000#32 reduces_S1024x768_S1024 (.inl rfl) rfl (ix1 r)).trans ?_
  refine Finset.sum_congr rfl fun k _ => ?_
  exact congrArg y (funext fun a => Fin.ext (by match a with | ⟨0, _⟩ => rfl | ⟨1, _⟩ => rfl))

/-- A [1, 512] row broadcast down 1024 rows: entry (r, q) is the row's entry q. -/
theorem rowbcast_apply (s : FVec Ideal S1x512 .f32) (r : Fin 1024) (q : Fin 512) :
    broadcastTo S1024x512 s broadcasts_S1x512_S1024x512 (ix2 r q) = s (ix2 (0 : Fin 1) q) :=
  broadcastTo_apply _ broadcasts_S1x512_S1024x512 (ix2 r q) (ix2 (0 : Fin 1) q) (fun a => by
    match a with
    | ⟨0, _⟩ => show 0 = if (1 : Nat) = 1 then 0 else r.val; rw [if_pos rfl]
    | ⟨1, _⟩ => show q.val = if (512 : Nat) = 1 then 0 else q.val; rw [if_neg (by decide)])

/-- THE STORED BLOCK at entry (r, q): ‖x0_r‖² + x2_q − 2·⟨x0_r, x1_q⟩. -/
theorem pay_apply (x0 : Vec Ideal S1024x768 .f32) (x1 : Vec Ideal S512x768 .f32) (x2 : Vec Ideal S1x512 .f32) (r : Fin 1024) (q : Fin 512) :
    k0_pay1 (F := Ideal) x0 x1 x2 (ix2 r q)
      = ((∑ k : Fin 768, x0 (ix2 r k) * x0 (ix2 r k)) + x2 (ix2 (0 : Fin 1) q)) - Cert.SqDist.two * ∑ k : Fin 768, x0 (ix2 r k) * x1 (ix2 q k) := by
  unfold k0_pay1
  simp only [shapeCast_self]
  rw [subf_apply, addf_apply, mulf_apply, rowsum_apply, rowbcast_apply, cross_apply]
  rfl

end Cert.KernelIdeal.Block

end
-- ==== Proof.FlatRows.lean ====
/-
  The layout changes around the kernel's grid, read at an index.
  * The tokens [32, 512, 768] are handed to the grid as 16384 flat rows: flat row b·512 + s is row (b, s).
  * The prototypes' squared norms are computed before the grid as a sum over the feature axis, kept as a [512, 1]
    column and transposed to the [1, 512] row the grid reads: entry (0, q) is 0 + ‖p_q‖².
  * The grid's [16384, 512] result is cut back into [32, 512, 512]: entry (b, s, q) is flat entry (b·512 + s, q).
  Put together: the flat-row distance table over those two arrays, cut back, is the distance table over the
  [32, 512] table of rows (`SqDist.dist3`).
-/
import proofs.«162291_j50818053047015_1_alg».proof.Proof.Gen.KernelIdeal
import proofs.«162291_j50818053047015_1_alg».proof.Proof.SqDist
import Idealize.ShloMosaic.Lib.ValueIdx
import Idealize.ShloMosaic.Lib.Pipeline.Value
import Idealize.ShloMosaic.PureOps.Ideal.Laws

noncomputable section

namespace Cert.KernelIdeal.FlatRows

open Cert.KernelIdeal Cert.KernelIdeal.Gen Idealize.ShloMosaic Idealize.ShloMosaic.ValueIdx

/-- The flat row of token (b, s). -/
abbrev flatRow (b : Fin 32) (s : Fin 512) : Fin 16384 := ⟨b.val * 512 + s.val, by have := b.isLt; have := s.isLt; omega⟩

/-- Flat row b·512 + s of the reshaped tokens is row (b, s) of the tokens. -/
theorem tokens_apply (x : S32x512x768.Idx → EReal) (h : S32x512x768.ShapeCasts S16384x768) (b : Fin 32) (s : Fin 512) (k : Fin 768) :
    shapeCast S16384x768 x h (ix2 (flatRow b s) k) = x (ix3 b s k) :=
  shapeCast_apply x h (ix2 (flatRow b s) k) (ix3 b s k) (by
    rw [Shape.rowMajor_val_three, Shape.rowMajor_val_two]
    show (b.val * 512 + s.val) * 768 + k.val = (b.val * 512 + s.val) * 768 + k.val
    rfl)

/-- The prototypes' squared norms as the grid receives them: entry (0, q) of the row is 0 + the sum over the features
    of p(q, ·)². -/
theorem norms_apply (p : FVec Ideal S512x768 .f32) (hr : S512x768.ReducesTo [1] S512) (h0 : 0 < S_.numel)
    (hb : S512.BroadcastsInDim S512x1 (![0] : Fin 1 → Fin S512x1.rank)) (ht : S512x1.Transposes [1, 0] S1x512) (q : Fin 512) :
    transpose S1x512 [1, 0] (broadcastInDim S512x1 ![0] hb (Host.reduceAdd (mulf p p) (constant (F := Ideal) S_ .f32 0x00000000#32) hr h0)) ht (ix2 (0 : Fin 1) q)
      = Ideal.ofBits .f32 0x00000000#32 + ∑ k : Fin 768, p (ix2 q k) * p (ix2 q k) := by
  rw [transpose_apply [1, 0] _ ht (ix2 (0 : Fin 1) q) (ix2 q (0 : Fin 1)) (fun b => by
    match b with
    | ⟨0, _⟩ => rfl
    | ⟨1, _⟩ => rfl)]
  rw [broadcastInDim_apply _ hb _ (ix2 q (0 : Fin 1)) (ix1 q) (fun a => by
    match a with
    | ⟨0, _⟩ => show q.val = if (512 : Nat) = 1 then 0 else q.val; rw [if_neg (by decide)])]
  simp only [Host.reduceAdd, Ideal.hostReduceAdd_def]
  rw [Ideal.hostReduceAdd_single hr (by decide)]
  refine congrArg (_ + ·) (Finset.sum_congr rfl fun k _ => ?_)
  exact congrArg (mulf p p) (funext fun a => Fin.ext (by match a with | ⟨0, _⟩ => rfl | ⟨1, _⟩ => rfl))

/-- Entry (b, s, q) of the grid's result cut back into [32, 512, 512] is its flat entry (b·512 + s, q). -/
theorem result_apply (y : S16384x512.Idx → EReal) (h : S16384x512.ShapeCasts S32x512x512) (b : Fin 32) (s : Fin 512) (q : Fin 512) :
    shapeCast S32x512x512 y h (ix3 b s q) = y (ix2 (flatRow b s) q) :=
  shapeCast_apply y h (ix3 b s q) (ix2 (flatRow b s) q) (by
    rw [Shape.rowMajor_val_three, Shape.rowMajor_val_two]
    show (b.val * 512 + s.val) * 512 + q.val = (b.val * 512 + s.val) * 512 + q.val
    rfl)

/-- THE KERNEL'S WHOLE RESULT from its flat-row table: the flat-row distances of the reshaped tokens against the
    prototypes and their precomputed norms, cut back into [32, 512, 512], are the distances over the [32, 512] table. -/
theorem dist2_unflatten (x : S32x512x768.Idx → EReal) (p : FVec Ideal S512x768 .f32)
    (h1 : S32x512x768.ShapeCasts S16384x768) (hr : S512x768.ReducesTo [1] S512) (h0 : 0 < S_.numel)
    (hb : S512.BroadcastsInDim S512x1 (![0] : Fin 1 → Fin S512x1.rank)) (ht : S512x1.Transposes [1, 0] S1x512)
    (h2 : S16384x512.ShapeCasts S32x512x512) :
    shapeCast S32x512x512 (Cert.SqDist.dist2 (shapeCast S16384x768 x h1) p
        (transpose S1x512 [1, 0] (broadcastInDim S512x1 ![0] hb (Host.reduceAdd (mulf p p) (constant (F := Ideal) S_ .f32 0x00000000#32) hr h0)) ht)) h2
      = Cert.SqDist.dist3 x p := by
  funext i
  obtain ⟨b, s, q, rfl⟩ : ∃ (b : Fin 32) (s : Fin 512) (q : Fin 512), i = ix3 b s q := ⟨i 0, i 1, i 2, eq_ix3 i⟩
  refine (result_apply _ h2 b s q).trans ?_
  show ((∑ k : Fin 768, shapeCast S16384x768 x h1 (ix2 (flatRow b s) k) * shapeCast S16384x768 x h1 (ix2 (flatRow b s) k))
      + transpose S1x512 [1, 0] (broadcastInDim S512x1 ![0] hb (Host.reduceAdd (mulf p p) (constant (F := Ideal) S_ .f32 0x00000000#32) hr h0)) ht (ix2 (0 : Fin 1) q))
      - Cert.SqDist.two * ∑ k : Fin 768, shapeCast S16384x768 x h1 (ix2 (flatRow b s) k) * p (ix2 q k)
    = ((∑ k : Fin 768, x (ix3 b s k) * x (ix3 b s k)) + (∑ k : Fin 768, p (ix2 q k) * p (ix2 q k)))
      - Cert.SqDist.two * ∑ k : Fin 768, x (ix3 b s k) * p (ix2 q k)
  rw [norms_apply p hr h0 hb ht q, Ideal.ofBits_zero_f32, zero_add]
  simp only [tokens_apply]

end Cert.KernelIdeal.FlatRows

end
-- ==== Proof.KernelValue.lean ====
/-
  The kernel's run, read as a value. The grid has 16 steps; step t reads rows t·1024 … t·1024 + 1023 of the flat
  token rows, the whole prototype table and the whole row of prototype norms, and writes rows
  t·1024 … t·1024 + 1023 of the [16384, 512] result. What a step writes is the block of ONE table — the flat-row
  distances `SqDist.dist2` of the three arrays as the grid finds them — and the 16 blocks tile the result, so after
  the grid the result array is that table. The reshape after the grid cuts it into [32, 512, 512]; with the arrays
  the grid finds read back to the program's arguments (`FlatRows`), the program's first result is `SqDist.dist3` of
  its arguments; its second result is the prototypes, which nothing writes.
-/
import proofs.«162291_j50818053047015_1_alg».proof.Proof.Gen.KernelIdeal.Frame
import proofs.«162291_j50818053047015_1_alg».proof.Proof.KernelBlock
import proofs.«162291_j50818053047015_1_alg».proof.Proof.FlatRows
import Idealize.ShloMosaic.Lib.Pipeline.Value
import Idealize.ShloMosaic.Lib.StableHlo.Run

set_option maxRecDepth 16384

noncomputable section

namespace Cert.KernelIdeal.Dist

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin2 : (![0, 0] : Fin 2 → Nat) = fun _ => 0 := funext fun a => by fin_cases a <;> rfl

/-- The printed index maps over the grid: step t takes block row t of the tokens and of the result, and the one
    block of the prototypes and of their norms. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored block against the table, over plain arrays: if the token block `x0` is rows tv·1024 … of the flat
    rows `A`, and the other two blocks are the whole arrays, then entry j of the stored block is entry
    (tv·1024 + j₀, j₁) of the flat-row distance table. -/
theorem block_entry (A : S16384x768.Idx → EReal) (Pm : S512x768.Idx → EReal) (Sq : S1x512.Idx → EReal)
    (x0 : Vec Ideal S1024x768 .f32) (x1 : Vec Ideal S512x768 .f32) (x2 : Vec Ideal S1x512 .f32) (tv : Nat)
    (h0 : ∀ (y : S1024x768.Idx) (e : S16384x768.Idx), (e 0).val = tv * 1024 + (y 0).val → (e 1).val = (y 1).val → x0 y = A e)
    (h1 : x1 = Pm) (h2 : x2 = Sq)
    (r : Fin 1024) (q : Fin 512) (e : S16384x512.Idx) (he0 : (e 0).val = tv * 1024 + r.val) (he1 : (e 1).val = q.val) :
    k0_pay1 (F := Ideal) x0 x1 x2 (ix2 r q) = Cert.SqDist.dist2 A Pm Sq e := by
  subst h1 h2
  refine (Block.pay_apply x0 x1 x2 r q).trans ?_
  obtain ⟨e0, e1, rfl⟩ : ∃ (e0 : Fin 16384) (e1 : Fin 512), e = ix2 e0 e1 := ⟨e 0, e 1, eq_ix2 e⟩
  have hq : e1 = q := Fin.ext he1
  subst hq
  have hx : ∀ k : Fin 768, x0 (ix2 r k) = A (ix2 e0 k) := fun k => h0 (ix2 r k) (ix2 e0 k) he0 rfl
  show ((∑ k : Fin 768, x0 (ix2 r k) * x0 (ix2 r k)) + x2 (ix2 (0 : Fin 1) e1)) - Cert.SqDist.two * ∑ k : Fin 768, x0 (ix2 r k) * x1 (ix2 e1 k)
    = ((∑ k : Fin 768, A (ix2 e0 k) * A (ix2 e0 k)) + x2 (ix2 (0 : Fin 1) e1)) - Cert.SqDist.two * ∑ k : Fin 768, A (ix2 e0 k) * x1 (ix2 e1 k)
  simp only [hx]

/-- WHAT STEP t WRITES BACK is block t of the flat-row distance table of the arrays as the grid finds them. -/
theorem flushed_eq (c : Dev nD) (t : Fin cfg0.N) :
    (dats m 0 c).flushed 3 t = ((cfg0.win 3).blk t).view.read (Elt Ideal)
      (Cert.SqDist.dist2 (V m c main_v0) (V m c main_arg1) (V m c main_v4)) := by
  show (cfg0.win 3).cut (grid0.coords t) ((dats m 0 c).after 3 t) = _
  rw [after0_3]
  unfold out0_3
  rw [View.canon_unit_zero origin2]
  simp only [View.ld_unit_zero (S := S1024x768) origin2, View.ld_unit_zero (S := S512x768) origin2, View.ld_unit_zero (S := S1x512) origin2]
  obtain ⟨a0, a1, b0, b1, c0, c1, d0, d1⟩ := index_facts t
  funext j
  show k0_pay1 (F := Ideal) (iblk m c 0 t) (iblk m c 1 t) (iblk m c 2 t) j
    = Cert.SqDist.dist2 (V m c main_v0) (V m c main_arg1) (V m c main_v4) (((cfg0.win 3).blk t).view.emb j)
  refine (congrArg (k0_pay1 (F := Ideal) (iblk m c 0 t) (iblk m c 1 t) (iblk m c 2 t)) (eq_ix2 j)).trans ?_
  refine block_entry (V m c main_v0) (V m c main_arg1) (V m c main_v4) (iblk m c 0 t) (iblk m c 1 t) (iblk m c 2 t) t.val ?_ ?_ ?_ (j 0) (j 1) _ ?_ ?_
  · intro y e he0 he1
    show V m c main_v0 (((cfg0.win 0).blk t).view.emb y) = V m c main_v0 e
    refine congrArg (V m c main_v0) (funext fun a => Fin.ext ?_)
    match a with
    | ⟨0, _⟩ => show win0_0.index t (0 : Fin 2) * 1024 + 1 * (y 0).val = (e 0).val; omega
    | ⟨1, _⟩ => show win0_0.index t (1 : Fin 2) * 768 + 1 * (y 1).val = (e 1).val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 512 + 1 * (y 0).val = (y 0).val; omega
    | ⟨1, _⟩ => show win0_1.index t (1 : Fin 2) * 768 + 1 * (y 1).val = (y 1).val; omega
  · funext y
    show V m c main_v4 (((cfg0.win 2).blk t).view.emb y) = V m c main_v4 y
    refine congrArg (V m c main_v4) (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  · show win0_3.index t (0 : Fin 2) * 1024 + 1 * (j 0).val = t.val * 1024 + (j 0).val; omega
  · show win0_3.index t (1 : Fin 2) * 512 + 1 * (j 1).val = (j 1).val; omega

/-- An index of the result array is in step t's block iff each coordinate is in the block's range on its axis. -/
theorem mem_blk (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5).slice (win0_3.rect t)).set ↔ _
  rw [View.set_slice_whole, Rect.mem_set_unit]
  exact Iff.rfl

/-- THE 16 BLOCKS TILE THE RESULT: row r is in the block of step r / 1024. -/
theorem covered (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : (i 0).val / 1024 < grid0.N := by rw [N_0]; omega
  obtain ⟨a0, a1, b0, b1, c0, c1, d0, d1⟩ := index_facts ⟨(i 0).val / 1024, hN⟩
  refine ⟨⟨(i 0).val / 1024, hN⟩, flush0_3 _, ?_⟩
  rw [mem_blk]
  intro a
  match a with
  | ⟨0, _⟩ =>
    show win0_3.index ⟨(i 0).val / 1024, hN⟩ (0 : Fin 2) * 1024 ≤ (i 0).val ∧ (i 0).val < win0_3.index ⟨(i 0).val / 1024, hN⟩ (0 : Fin 2) * 1024 + 1024
    rw [d0]; show (i 0).val / 1024 * 1024 ≤ (i 0).val ∧ (i 0).val < (i 0).val / 1024 * 1024 + 1024; omega
  | ⟨1, _⟩ =>
    show win0_3.index ⟨(i 0).val / 1024, hN⟩ (1 : Fin 2) * 512 ≤ (i 1).val ∧ (i 1).val < win0_3.index ⟨(i 0).val / 1024, hN⟩ (1 : Fin 2) * 512 + 512
    rw [d1]; omega

/-- THE RESULT ARRAY AFTER THE GRID is the flat-row distance table of the arrays as the grid finds them. -/
theorem final (c : Dev nD) :
    (dats m 0 c).arrAt 3 cfg0.N = Cert.SqDist.dist2 (V m c main_v0) (V m c main_arg1) (V m c main_v4) :=
  (dats m 0 c).arrAt_eq_of_cover 3 _ (fun t _ => flushed_eq m c t) covered

/-- The flat token rows the grid finds are the tokens reshaped. -/
theorem tokens_found (c : Dev nD) :
    (V m c main_v0 : S16384x768.Idx → EReal) = shapeCast S16384x768 (m ((c : Thread nD τ).loc main_arg0)) shapeCasts_S32x512x768_S16384x768 := by
  show StableHlo.after hostOps0 (fun b => m (c, b)) (Proc.devRef .tc main_v0) = _
  after_results
  rfl

/-- The norm row the grid finds is the prototypes' squared norms, summed, kept as a column, transposed. -/
theorem norms_found (c : Dev nD) :
    (V m c main_v4 : S1x512.Idx → EReal) = transpose S1x512 [1, 0] (broadcastInDim S512x1 ![0] bcast_S512_S512x1_0
      (Host.reduceAdd (mulf (m ((c : Thread nD τ).loc main_arg1)) (m ((c : Thread nD τ).loc main_arg1))) (constant (F := Ideal) S_ .f32 0x00000000#32) reducesTo_S512x768_S512_d1 h_S_)) transposes_S512x1_S1x512_1_0 := by
  show StableHlo.after hostOps0 (fun b => m (c, b)) (Proc.devRef .tc main_v4) = _
  after_results

/-- The program's first result after the lines that follow the grid: the result array cut into [32, 512, 512]. -/
theorem tail_result (c : Dev nD) :
    Pipeline.afterTail₀ cfgs (dats m) 0 (V0 m) [hostOps1] c main_v6
      = shapeCast S32x512x512 ((dats m 0 c).arrAt 3 cfg0.N) shapeCasts_S16384x512_S32x512x512 := by
  unfold Pipeline.afterTail₀
  show StableHlo.after hostOps1 _ (Proc.devRef .tc main_v6) = _
  after_results
  exact congrArg (fun y => shapeCast S32x512x512 y shapeCasts_S16384x512_S32x512x512)
    (Pipeline.withArrays_arr spec0 launch0.win.arr_inj c _ _ 3)

/-- THE PROGRAM'S FIRST RESULT is the distance table of its arguments. -/
theorem result_eq (c : Dev nD) :
    Pipeline.afterTail₀ cfgs (dats m) 0 (V0 m) [hostOps1] c main_v6
      = Cert.SqDist.dist3 (m ((c : Thread nD τ).loc main_arg0)) (m ((c : Thread nD τ).loc main_arg1)) := by
  rw [tail_result, final, tokens_found, norms_found, V_main_arg1]
  exact FlatRows.dist2_unflatten _ _ _ _ _ _ _ _

/-- THE RUN, READ: every weakly fair execution ends with the first result at the distance table of the arguments and
    the arguments as they were. -/
theorem run : θ_run defs (onTc (τ := τ) (main (F := Ideal))) ⟨m, fun _ => 0, ρ⟩ fun r => ∀ c : Dev nD,
      r.2.mem ((c : Thread nD τ).loc main_v6) = Cert.SqDist.dist3 (m ((c : Thread nD τ).loc main_arg0)) (m ((c : Thread nD τ).loc main_arg1))
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1) := by
  have harg1 : ∀ (r : PUnit × MemSt nD τ sig (Elt Ideal)), Pipeline.FramePost cfgs (dats m) 0 (Pipeline.afterTail₀ cfgs (dats m) 0 (V0 m) [hostOps1]) r →
      ∀ c : Dev nD, r.2.mem ((c : Thread nD τ).loc main_arg1) = m ((c : Thread nD τ).loc main_arg1) := fun r h c =>
    ((h c).1 1).trans (((dats m 0 c).arrAt_in 1 rfl _).trans ((A_eq m c 1).trans (V_main_arg1 m c)))
  refine (θ_run defs _ _).mono (fun r h c => ⟨?_, harg1 r h c, ?_, harg1 r h c⟩) (run_main m ρ)
  · exact ((h c).2 main_v6 (Pipeline.mem_restRefs_of main_v6 (by decide) (by decide))).trans (result_eq m c)
  · exact ((h c).2 main_arg0 (Pipeline.mem_restRefs_of main_arg0 (by decide) (by decide))).trans (W_main_arg0 m (dats m) c)

end Cert.KernelIdeal.Dist

end
-- ==== Proof.RefSqDist.lean ====
/-
  The reference computes the distance table directly over the [32, 512] table of token rows: the row norms as a
  sum over the feature axis kept as a [32, 512, 1] column, the prototype norms as a sum kept as a [1, 1, 512] row,
  both broadcast to [32, 512, 512], their sum, minus 2 times the contraction of tokens with prototypes over the
  feature axis. Read at an index (b, s, q), operation by operation, that is (0 + ‖x_bs‖²) + (0 + ‖p_q‖²) − 2·⟨x_bs, p_q⟩,
  which is `SqDist.dist3` once the two zero initial values are dropped.
-/
import proofs.«162291_j50818053047015_1_alg».proof.Proof.Gen.ReferenceIdeal.Read
import proofs.«162291_j50818053047015_1_alg».proof.Proof.SqDist

noncomputable section

namespace Cert.ReferenceIdeal.Dist

open Cert.ReferenceIdeal Cert.ReferenceIdeal.Gen Cert.ReferenceIdeal.Read Idealize.ShloMosaic Idealize.ShloMosaic.ValueIdx

/-- The token row the reference's row-norm sum reads at (b, s, q), through its two broadcasts: row (b, s). -/
theorem xnorm_idx (b : Fin 32) (s : Fin 512) (q : Fin 512) (k : Fin 768) :
    idx_main_v1 (idx_main_v2 (idx_main_v7 (ix3 b s q))) k = ix3 b s k :=
  funext fun a => Fin.ext (by match a with | ⟨0, _⟩ => rfl | ⟨1, _⟩ => rfl | ⟨2, _⟩ => rfl)

/-- The prototype row its prototype-norm sum reads at (b, s, q), through its two broadcasts: row q. -/
theorem pnorm_idx (b : Fin 32) (s : Fin 512) (q : Fin 512) (k : Fin 768) :
    idx_main_v4 (idx_main_v6 (idx_main_v8 (ix3 b s q))) k = ix2 q k :=
  funext fun a => Fin.ext (by match a with | ⟨0, _⟩ => rfl | ⟨1, _⟩ => rfl)

/-- The contraction's left operand at (b, s, q): token row (b, s). -/
theorem cross_lidx (b : Fin 32) (s : Fin 512) (q : Fin 512) (k : Fin 768) :
    lidx_main_v5 (ix3 b s q) k = ix3 b s k :=
  funext fun a => Fin.ext (by match a with | ⟨0, _⟩ => rfl | ⟨1, _⟩ => rfl | ⟨2, _⟩ => rfl)

/-- Its right operand: prototype row q. -/
theorem cross_ridx (b : Fin 32) (s : Fin 512) (q : Fin 512) (k : Fin 768) :
    ridx_main_v5 (ix3 b s q) k = ix2 q k :=
  funext fun a => Fin.ext (by match a with | ⟨0, _⟩ => rfl | ⟨1, _⟩ => rfl)

/-- THE REFERENCE'S RESULT is the distance table. -/
theorem result_eq (x : (⟨S32x512x768, .f32⟩ : BufTy).Contents (Elt Ideal)) (p : (⟨S512x768, .f32⟩ : BufTy).Contents (Elt Ideal)) :
    val_main_v12 (F := Ideal) x p = Cert.SqDist.dist3 x p := by
  funext i
  obtain ⟨b, s, q, rfl⟩ : ∃ (b : Fin 32) (s : Fin 512) (q : Fin 512), i = ix3 b s q := ⟨i 0, i 1, i 2, eq_ix3 i⟩
  rw [val_main_v12_apply, val_main_v9_apply, val_main_v11_apply, val_main_v7_apply, val_main_v2_apply, val_main_v1_apply,
    val_main_v8_apply, val_main_v6_apply, val_main_v4_apply, val_main_v10_apply, val_main_v5_apply]
  simp only [val_main_v0_apply, val_main_v3_apply, val_main_cst_apply, val_main_cst_0_apply, val_main_cst_1_apply,
    xnorm_idx, pnorm_idx, cross_lidx, cross_ridx,
    Ideal.ofBits_def, Ideal.addf_def, Ideal.subf_def, Ideal.mulf_def, Ideal.ofBits_zero_f32, zero_add]
  rfl

end Cert.ReferenceIdeal.Dist

end
-- ==== Proof.lean ====
/-
  Squared Euclidean distances from 32 × 512 token vectors to 512 prototype vectors, all of 768 features, by the
  expansion ‖x − p‖² = ‖x‖² + ‖p‖² − 2·⟨x, p⟩.

  The kernel flattens the tokens to 16384 rows, computes the prototypes' squared norms once before its grid as a
  [1, 512] row, and in each of 16 grid steps takes 1024 token rows: their squared norms by a sum along the row, the
  cross terms by a matrix product of the block with the prototype table (operands narrowed to bf16, accumulated in
  f32 from zero), and stores (row norms + prototype norms) − 2 · cross; the [16384, 512] result is reshaped to
  [32, 512, 512]. The reference computes (row norms + prototype norms) − 2 · einsum directly on the [32, 512, 768]
  array. Over the extended reals a narrowing is the identity, a matrix product from a zero accumulator and a sum
  along an axis are plain finite sums, and the two programs apply the same additions, the same subtraction and the
  same multiplication by the same literal 2.0 in the same grouping: entry (b, s, q) of both results is
      (Σ_k x(b,s,k)² + Σ_k p(q,k)²) − 2 · Σ_k x(b,s,k) · p(q,k)        (`SqDist.dist3`).
  So the equality needs no law of arithmetic beyond `0 + a = a` (the sums' zero initial values), and the finiteness
  of the inputs is never used: what is proved is bookkeeping of indices — flat row b·512 + s is row (b, s); the
  block of step t is rows t·1024 … t·1024 + 1023; the 16 blocks tile the result.

  The modules: `SqDist` (the table, over the [32, 512] layout and over the flat one), `RefSqDist` (the reference's
  result is the table), `KernelBlock` (one stored block at an entry), `FlatRows` (the reshapes and the norm row at an
  index; the flat table cut back is the table), `KernelValue` (what a step writes back is a block of the flat table,
  the blocks tile the array, the lines after the grid, the run). The second result of both programs is the
  prototype array itself. The ideal pass rewrote nothing, so `preserves` is trivial.
-/
import proofs.«162291_j50818053047015_1_alg».proof.Defs
import proofs.«162291_j50818053047015_1_alg».proof.Proof.Gen.Kernel
import proofs.«162291_j50818053047015_1_alg».proof.Proof.Gen.Kernel.Skeleton
import proofs.«162291_j50818053047015_1_alg».proof.Proof.Gen.Kernel.Launch
import proofs.«162291_j50818053047015_1_alg».proof.Proof.Gen.Kernel.Points
import proofs.«162291_j50818053047015_1_alg».proof.Proof.Gen.Kernel.Frame
import proofs.«162291_j50818053047015_1_alg».proof.Proof.Gen.KernelIdeal
import proofs.«162291_j50818053047015_1_alg».proof.Proof.Gen.KernelIdeal.Skeleton
import proofs.«162291_j50818053047015_1_alg».proof.Proof.Gen.KernelIdeal.Launch
import proofs.«162291_j50818053047015_1_alg».proof.Proof.Gen.KernelIdeal.Points
import proofs.«162291_j50818053047015_1_alg».proof.Proof.Gen.KernelIdeal.Frame
import proofs.«162291_j50818053047015_1_alg».proof.Proof.Gen.ReferenceIdeal
import proofs.«162291_j50818053047015_1_alg».proof.Proof.Gen.Pre_finite_inputs
import proofs.«162291_j50818053047015_1_alg».proof.Proof.Gen.ReferenceIdeal.Run
import proofs.«162291_j50818053047015_1_alg».proof.Proof.Gen.ReferenceIdeal.Read
import proofs.«162291_j50818053047015_1_alg».proof.Proof.KernelValue
import proofs.«162291_j50818053047015_1_alg».proof.Proof.RefSqDist
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the distance table of the (agreeing) arguments as first result and the prototypes as
    second. -/
theorem algebraic : Cert.algebraic_KernelIdeal_ReferenceIdeal := by
  intro m ρ m' ρ' _ hagree
  refine ⟨fun c => Cert.SqDist.dist3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg1),
    Cert.KernelIdeal.Dist.run m ρ, ?_⟩
  refine (θ_run Cert.ReferenceIdeal.defs _ _).mono
    (fun _ h c => ⟨(h c).1.trans ?_, (h c).2.1.trans (hagree c).2, (h c).2.2.1, (h c).2.2.2⟩)
    (Cert.ReferenceIdeal.Value.run (F := Ideal) m' ρ')
  rw [Cert.ReferenceIdeal.Read.val_main_v12_eq, Cert.ReferenceIdeal.Dist.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
